-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S64x5x5 : Shape := ⟨3, ![64, 5, 5]⟩
abbrev S64 : Shape := ⟨1, ![64]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S64x5x5 : S_.BroadcastsInDim S64x5x5 (![] : Fin 0 → Fin S64x5x5.rank)
  reducesTo_S64x5x5_S_d0_1_2 : S64x5x5.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x64x64x64 .f32) (main_arg1 : FVec F S64x5x5 .f32) (main_arg2 : FVec F S64 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S64x5x5 .f32 := Host.absf main_arg1
  let main_cst_0 : FVec F S_ .f32 := constant S_ .f32 0x7F800000#32
  let main_v5 : FVec F S64x5x5 .f32 := broadcastInDim S64x5x5 ![] bcast_S_S64x5x5 main_cst_0
  let main_v6 : IVec S64x5x5 1 := cmpf .olt main_v4 main_v5
  let main_c_1 : IVec S_ 1 := constantI S_ 1 1#1
  let main_v7 : IVec S_ 1 := (fun x v => Host.reduce IntOp.andi x v reducesTo_S64x5x5_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x64x64x64 : Shape := ⟨4, ![8, 64, 64, 64]⟩
abbrev S64x5x5 : Shape := ⟨3, ![64, 5, 5]⟩
abbrev S64 : Shape := ⟨1, ![64]⟩
abbrev S32768x64 : Shape := ⟨2, ![32768, 64]⟩
abbrev S64x25 : Shape := ⟨2, ![64, 25]⟩
abbrev S64x32768x25 : Shape := ⟨3, ![64, 32768, 25]⟩
abbrev S512x64 : Shape := ⟨2, ![512, 64]⟩
abbrev S64x512x25 : Shape := ⟨3, ![64, 512, 25]⟩
abbrev S512 : Shape := ⟨1, ![512]⟩
abbrev S512x1 : Shape := ⟨2, ![512, 1]⟩
abbrev S1x512x1 : Shape := ⟨3, ![1, 512, 1]⟩
abbrev S64x1x25 : Shape := ⟨3, ![64, 1, 25]⟩
abbrev S64x1x1 : Shape := ⟨3, ![64, 1, 1]⟩
abbrev S1x64x32768x25 : Shape := ⟨4, ![1, 64, 32768, 25]⟩

abbrev nBuf : Space → Nat
  | .hbm => 7
  | .vmem => 6
  | .smem => 0
  | _ => 0

abbrev bufTy : (tb : Table) → Fin (tcTables nBuf tb) → BufTy
  | .hbm, ⟨0, _⟩ => ⟨S8x64x64x64, .f32⟩
  | .hbm, ⟨1, _⟩ => ⟨S64x5x5, .f32⟩
  | .hbm, ⟨2, _⟩ => ⟨S64, .f32⟩
  | .hbm, ⟨3, _⟩ => ⟨S32768x64, .f32⟩
  | .hbm, ⟨4, _⟩ => ⟨S64x25, .f32⟩
  | .hbm, ⟨5, _⟩ => ⟨S64x32768x25, .f32⟩
  | .hbm, ⟨6, _⟩ => ⟨S1x64x32768x25, .f32⟩
  | .local _ .vmem, ⟨0, _⟩ => ⟨S512x64, .f32⟩
  | .local _ .vmem, ⟨1, _⟩ => ⟨S512x64, .f32⟩
  | .local _ .vmem, ⟨2, _⟩ => ⟨S64x25, .f32⟩
  | .local _ .vmem, ⟨3, _⟩ => ⟨S64, .f32⟩
  | .local _ .vmem, ⟨4, _⟩ => ⟨S64x512x25, .f32⟩
  | .local _ .vmem, ⟨5, _⟩ => ⟨S64x512x25, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x64x64x64_S32768x64 : S8x64x64x64.ShapeCasts S32768x64
  shapeCasts_S64x5x5_S64x25 : S64x5x5.ShapeCasts S64x25
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S512x64_S512 : S512x64.Reduces [1] S512
  shapeCasts_S512_S512x1 : S512.ShapeCasts S512x1
  inb_S64x25_S64x25_0_0 : ∀ a, (![0, 0] : Fin 2 → Nat) a + S64x25.size a ≤ S64x25.size a
  h_S64x25 : 0 < S64x25.numel
  shapeCasts_S64x25_S64x25 : S64x25.ShapeCasts S64x25
  inb_S64_S64_0 : ∀ a, (![0] : Fin 1 → Nat) a + S64.size a ≤ S64.size a
  h_S64 : 0 < S64.numel
  shapeCasts_S512x1_S1x512x1 : S512x1.ShapeCasts S1x512x1
  shapeCasts_S64x25_S64x1x25 : S64x25.ShapeCasts S64x1x25
  broadcasts_S1x512x1_S64x512x25 : S1x512x1.Broadcasts S64x512x25
  broadcasts_S64x1x25_S64x512x25 : S64x1x25.Broadcasts S64x512x25
  shapeCasts_S64_S64x1x1 : S64.ShapeCasts S64x1x1
  broadcasts_S64x1x1_S64x512x25 : S64x1x1.Broadcasts S64x512x25
  inb_S64x512x25_S64x512x25_0_0_0 : ∀ a, (![0, 0, 0] : Fin 3 → Nat) a + S64x512x25.size a ≤ S64x512x25.size a
  h_S64x512x25 : 0 < S64x512x25.numel
  bcast_S64x32768x25_S1x64x32768x25_1_2_3 : S64x32768x25.BroadcastsInDim S1x64x32768x25 (![1, 2, 3] : Fin 3 → Fin S1x64x32768x25.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S32768x64.size a
  hwx0_0 : ∀ i : grid0.Coords, EltTy.bits .f32 = 32 ∨ (Rect.block (s := S32768x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x25.size a ≤ S64x25.size a
  hwx0_1 : ∀ i : grid0.Coords, EltTy.bits .f32 = 32 ∨ (Rect.block (s := S64x25) S64x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512x25.size a ≤ S64x32768x25.size a
  hwx0_3 : ∀ i : grid0.Coords, EltTy.bits .f32 = 32 ∨ (Rect.block (s := S64x32768x25) S64x512x25.size (cc0_transform_3 i) (hinb0_3 i)).WholeWords (EltTy.packing .f32)

variable [Facts₀]

abbrev win0_0 : Pipeline.Window sig grid0 :=
  Pipeline.Window.ofSpec (Memref.whole main_v0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x512x25.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x64x64 : Shape := ⟨4, ![8, 64, 64, 64]⟩
abbrev S64x5x5 : Shape := ⟨3, ![64, 5, 5]⟩
abbrev S64 : Shape := ⟨1, ![64]⟩
abbrev S_ : Shape := ⟨0, ![]⟩
abbrev S8x64x64 : Shape := ⟨3, ![8, 64, 64]⟩
abbrev S32768 : Shape := ⟨1, ![32768]⟩
abbrev S64x25 : Shape := ⟨2, ![64, 25]⟩
abbrev S1x32768x1 : Shape := ⟨3, ![1, 32768, 1]⟩
abbrev S64x1x25 : Shape := ⟨3, ![64, 1, 25]⟩
abbrev S64x32768x25 : Shape := ⟨3, ![64, 32768, 25]⟩
abbrev S64x1x1 : Shape := ⟨3, ![64, 1, 1]⟩
abbrev S1x64x32768x25 : Shape := ⟨4, ![1, 64, 32768, 25]⟩

abbrev nBuf : Space → Nat
  | .hbm => 19
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S64x5x5, .f32⟩
  | .hbm, ⟨2, _⟩ => ⟨S64, .f32⟩
  | .hbm, ⟨3, _⟩ => ⟨S_, .f32⟩
  | .hbm, ⟨4, _⟩ => ⟨S8x64x64, .f32⟩
  | .hbm, ⟨5, _⟩ => ⟨S32768, .f32⟩
  | .hbm, ⟨6, _⟩ => ⟨S64x25, .f32⟩
  | .hbm, ⟨7, _⟩ => ⟨S1x32768x1, .f32⟩
  | .hbm, ⟨8, _⟩ => ⟨S64x1x25, .f32⟩
  | .hbm, ⟨9, _⟩ => ⟨S64x32768x25, .f32⟩
  | .hbm, ⟨10, _⟩ => ⟨S64x32768x25, .f32⟩
  | .hbm, ⟨11, _⟩ => ⟨S64x32768x25, .f32⟩
  | .hbm, ⟨12, _⟩ => ⟨S64x1x1, .f32⟩
  | .hbm, ⟨13, _⟩ => ⟨S64x32768x25, .f32⟩
  | .hbm, ⟨14, _⟩ => ⟨S64x32768x25, .f32⟩
  | .hbm, ⟨15, _⟩ => ⟨S_, .f32⟩
  | .hbm, ⟨16, _⟩ => ⟨S64x32768x25, .f32⟩
  | .hbm, ⟨17, _⟩ => ⟨S64x32768x25, .f32⟩
  | .hbm, ⟨18, _⟩ => ⟨S1x64x32768x25, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8x64x64x64_S8x64x64_d3 : S8x64x64x64.ReducesTo [3] S8x64x64
  h_S_ : 0 < S_.numel
  shapeCasts_S8x64x64_S32768 : S8x64x64.ShapeCasts S32768
  shapeCasts_S64x5x5_S64x25 : S64x5x5.ShapeCasts S64x25
  bcast_S32768_S1x32768x1_1 : S32768.BroadcastsInDim S1x32768x1 (![1] : Fin 1 → Fin S1x32768x1.rank)
  bcast_S64x25_S64x1x25_0_2 : S64x25.BroadcastsInDim S64x1x25 (![0, 2] : Fin 2 → Fin S64x1x25.rank)
  bcast_S1x32768x1_S64x32768x25_0_1_2 : S1x32768x1.BroadcastsInDim S64x32768x25 (![0, 1, 2] : Fin 3 → Fin S64x32768x25.rank)
  bcast_S64x1x25_S64x32768x25_0_1_2 : S64x1x25.BroadcastsInDim S64x32768x25 (![0, 1, 2] : Fin 3 → Fin S64x32768x25.rank)
  bcast_S64_S64x1x1_0 : S64.BroadcastsInDim S64x1x1 (![0] : Fin 1 → Fin S64x1x1.rank)
  bcast_S64x1x1_S64x32768x25_0_1_2 : S64x1x1.BroadcastsInDim S64x32768x25 (![0, 1, 2] : Fin 3 → Fin S64x32768x25.rank)
  bcast_S_S64x32768x25 : S_.BroadcastsInDim S64x32768x25 (![] : Fin 0 → Fin S64x32768x25.rank)
  bcast_S64x32768x25_S1x64x32768x25_1_2_3 : S64x32768x25.BroadcastsInDim S1x64x32768x25 (![1, 2, 3] : Fin 3 → Fin S1x64x32768x25.rank)

variable [Facts₀]

class Facts : Prop extends Facts₀ where

variable [Facts]
-- ==== Proof.Spec.lean ====
/-
  The function both programs compute.  With x2 the input viewed as 32768 rows of 64 entries, Wf the filters viewed as
  64 rows of 25 taps, and b the 64 biases,

      out[f, n, p] = max (rowSum[n] * Wf[f, p] + b[f]) 0,      rowSum[n] = Σ_k x2[n, k].

  Everything is over the extended reals; the only operations are one finite sum, one product, one sum and one maximum,
  applied in the same order on both sides, so no law of arithmetic is needed to join them.
-/
import Idealize.ShloMosaic.PureOps.Ideal
import Idealize.ShloMosaic.PureOps.Ideal.Laws
import Idealize.ShloMosaic.Lib.ValueIdx

noncomputable section

open scoped BigOperators

namespace Cert.OuterRelu

open Idealize.ShloMosaic Idealize.ShloMosaic.ValueIdx

/-- The input as rows. -/
abbrev Rows : Shape := ⟨2, ![32768, 64]⟩
/-- The filters as rows of taps. -/
abbrev Taps : Shape := ⟨2, ![64, 25]⟩
/-- The biases. -/
abbrev Bias : Shape := ⟨1, ![64]⟩
/-- The result before its leading unit axis is added. -/
abbrev Out : Shape := ⟨3, ![64, 32768, 25]⟩

/-- One entry of the result from a row sum, a tap and a bias. -/
def entry (s w b : EReal) : EReal := max (s * w + b) 0

/-- The sum of row `n`. -/
def rowSum (x : FVec Ideal Rows .f32) (n : Fin 32768) : EReal := ∑ k : Fin 64, x (ix2 n k)

/-- The whole result, index by index. -/
def out (x : FVec Ideal Rows .f32) (w : FVec Ideal Taps .f32) (b : FVec Ideal Bias .f32) : FVec Ideal Out .f32 :=
  fun i => entry (rowSum x (i 1)) (w (ix2 (i 0) (i 2))) (b (ix1 (i 0)))

/-- The result at an index given by its coordinates. -/
theorem out_ix3 (x : FVec Ideal Rows .f32) (w : FVec Ideal Taps .f32) (b : FVec Ideal Bias .f32)
    (f : Fin 64) (n : Fin 32768) (p : Fin 25) :
    out x w b (ix3 f n p) = entry (rowSum x n) (w (ix2 f p)) (b (ix1 f)) := rfl

end Cert.OuterRelu

end
-- ==== Proof.KernelPay.lean ====
/-
  The kernel body's stored value, read at one index of the [64, 512, 25] block.  From a [512, 64] block of rows x0, the
  [64, 25] taps x1 and the 64 biases x2 the body stores, at (f, r, p),

      max ((Σ_k x0[r, k]) * x1[f, p] + x2[f]) 0 :

  the row sums are reduced along the second axis and kept as a column, the column is laid along the middle axis of the
  block, the taps along the first and last axes, the biases along the first; product, sum and maximum are entrywise.
-/
import proofs.«164754_j83193516523865_1_alg».proof.Proof.Gen.KernelIdeal.Skeleton
import proofs.«164754_j83193516523865_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.OuterRelu

/-- The reduction along the second axis of a [512, 64] block, at row `r`, is the sum of that row. -/
theorem rowReduce_apply (x0 : FVec Ideal S512x64 .f32) (hacc : (0x00000000#32 : BitVec 32) = 0x00000000#32) (r : Fin 512) :
    multiReduction .add [1] S512 x0 0x00000000#32 reduces_S512x64_S512 (.inl rfl) hacc (ix1 r) = ∑ k : Fin 64, x0 (ix2 r k) := by
  refine (Ideal.multiReduction_add_single x0 0x00000000#32 reduces_S512x64_S512 (.inl rfl) hacc (ix1 r)).trans ?_
  refine Finset.sum_congr rfl fun k _ => congrArg x0 (funext fun a => Fin.ext ?_)
  match a with
  | ⟨0, _⟩ => rfl
  | ⟨1, _⟩ => rfl

/-- The column of row sums laid along the middle axis of the block: entry (f, r, p) is row sum `r`. -/
theorem sumsAlongRows_apply (v2 : FVec Ideal S512 .f32) (f : Fin 64) (r : Fin 512) (p : Fin 25) :
    broadcastTo S64x512x25 (shapeCast S1x512x1 (shapeCast S512x1 v2 shapeCasts_S512_S512x1) shapeCasts_S512x1_S1x512x1)
      broadcasts_S1x512x1_S64x512x25 (ix3 f r p) = v2 (ix1 r) := by
  refine (broadcastTo_apply _ broadcasts_S1x512x1_S64x512x25 (ix3 f r p) (ix3 (0 : Fin 1) r (0 : Fin 1)) (fun a => ?_)).trans ?_
  · match a with
    | ⟨0, _⟩ => rfl
    | ⟨1, _⟩ => rfl
    | ⟨2, _⟩ => rfl
  refine (shapeCast_apply _ shapeCasts_S512x1_S1x512x1 (ix3 (0 : Fin 1) r (0 : Fin 1)) (ix2 r (0 : Fin 1)) ?_).trans ?_
  · rw [Shape.rowMajor_val_two, Shape.rowMajor_val_three]
    show r.val * 1 + 0 = (0 * 512 + r.val) * 1 + 0
    omega
  refine (shapeCast_apply _ shapeCasts_S512_S512x1 (ix2 r (0 : Fin 1)) (ix1 r) ?_)
  rw [Shape.rowMajor_val_one, Shape.rowMajor_val_two]
  show r.val = r.val * 1 + 0
  omega

/-- The taps laid along the first and last axes of the block: entry (f, r, p) is tap (f, p). -/
theorem tapsAcrossRows_apply (v5 : FVec Ideal S64x25 .f32) (f : Fin 64) (r : Fin 512) (p : Fin 25) :
    broadcastTo S64x512x25 (shapeCast S64x1x25 v5 shapeCasts_S64x25_S64x1x25) broadcasts_S64x1x25_S64x512x25 (ix3 f r p)
      = v5 (ix2 f p) := by
  refine (broadcastTo_apply _ broadcasts_S64x1x25_S64x512x25 (ix3 f r p) (ix3 f (0 : Fin 1) p) (fun a => ?_)).trans ?_
  · match a with
    | ⟨0, _⟩ => rfl
    | ⟨1, _⟩ => rfl
    | ⟨2, _⟩ => rfl
  refine (shapeCast_apply _ shapeCasts_S64x25_S64x1x25 (ix3 f (0 : Fin 1) p) (ix2 f p) ?_)
  rw [Shape.rowMajor_val_two, Shape.rowMajor_val_three]
  show f.val * 25 + p.val = (f.val * 1 + 0) * 25 + p.val
  omega

/-- The biases laid along the first axis of the block: entry (f, r, p) is bias `f`. -/
theorem biasAcrossBlock_apply (v6 : FVec Ideal S64 .f32) (f : Fin 64) (r : Fin 512) (p : Fin 25) :
    broadcastTo S64x512x25 (shapeCast S64x1x1 v6 shapeCasts_S64_S64x1x1) broadcasts_S64x1x1_S64x512x25 (ix3 f r p)
      = v6 (ix1 f) := by
  refine (broadcastTo_apply _ broadcasts_S64x1x1_S64x512x25 (ix3 f r p) (ix3 f (0 : Fin 1) (0 : Fin 1)) (fun a => ?_)).trans ?_
  · match a with
    | ⟨0, _⟩ => rfl
    | ⟨1, _⟩ => rfl
    | ⟨2, _⟩ => rfl
  refine (shapeCast_apply _ shapeCasts_S64_S64x1x1 (ix3 f (0 : Fin 1) (0 : Fin 1)) (ix1 f) ?_)
  rw [Shape.rowMajor_val_one, Shape.rowMajor_val_three]
  show f.val = (f.val * 1 + 0) * 1 + 0
  omega

/-- The body's stored value at (f, r, p). -/
theorem stored_apply (x0 : Vec Ideal S512x64 .f32) (x1 : Vec Ideal S64x25 .f32) (x2 : Vec Ideal S64 .f32)
    (f : Fin 64) (r : Fin 512) (p : Fin 25) :
    k0_pay1 (F := Ideal) x0 x1 x2 (ix3 f r p) = entry (∑ k : Fin 64, x0 (ix2 r k)) (x1 (ix2 f p)) (x2 (ix1 f)) := by
  unfold k0_pay1
  show max (_ * _ + _) _ = _
  unfold entry
  refine congrArg₂ max (congrArg₂ (· + ·) (congrArg₂ (· * ·) ?_ ?_) ?_) ?_
  · refine (sumsAlongRows_apply _ f r p).trans ?_
    rw [shapeCast_self]
    exact rowReduce_apply x0 rfl r
  · refine (tapsAcrossRows_apply _ f r p).trans ?_
    rw [shapeCast_self]
  · exact biasAcrossBlock_apply x2 f r p
  · exact Ideal.ofBits_zero_f32

end Cert.KernelIdeal.Body

end
-- ==== Proof.KernelValue.lean ====
/-
  The idealized kernel's result array.  The grid has 64 points; point t reads rows 512·t … 512·t + 511 of the input viewed
  as 32768 rows, all the taps and all the biases, and writes back the [64, 512, 25] block of the output whose middle
  coordinates are those same rows.  Each block is the restriction of ONE function of the whole arrays (`OuterRelu.out`),
  the 64 blocks tile the middle axis, so the output array ends as that function; the line after the region only adds a
  leading unit axis.  The two lines before the region view the input as rows and the filters as rows of taps.
-/
import proofs.«164754_j83193516523865_1_alg».proof.Proof.Gen.KernelIdeal.Frame
import proofs.«164754_j83193516523865_1_alg».proof.Proof.KernelPay
import Idealize.ShloMosaic.Lib.StableHlo.Run

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open Cert.OuterRelu

variable (m : (ℓ : Loc nD τ sig) → Buf (Elt Ideal) ℓ) (ρ : Dev nD → PrngReg)

/-! ## The arrays the region finds -/

/-- The input viewed as rows, as the region finds it. -/
theorem rows_eq (c : Dev nD) :
    (V m c main_v0 : S32768x64.Idx → EReal) = shapeCast S32768x64 (m ((c : Thread nD τ).loc main_arg0)) shapeCasts_S8x64x64x64_S32768x64 := by
  show StableHlo.after hostOps0 (fun b => m (c, b)) (Proc.devRef .tc main_v0) = _
  after_results
  rfl

/-- The filters viewed as rows of taps, as the region finds them. -/
theorem taps_eq (c : Dev nD) :
    (V m c main_v1 : S64x25.Idx → EReal) = shapeCast S64x25 (m ((c : Thread nD τ).loc main_arg1)) shapeCasts_S64x5x5_S64x25 := by
  show StableHlo.after hostOps0 (fun b => m (c, b)) (Proc.devRef .tc main_v1) = _
  after_results
  rfl

/-! ## What one grid point writes back -/

theorem zero2 : (![0, 0] : Fin 2 → Nat) = fun _ => 0 := funext fun a => by fin_cases a <;> rfl
theorem zero1 : (![0] : Fin 1 → Nat) = fun _ => 0 := funext fun a => by fin_cases a <;> rfl
theorem zero3 : (![0, 0, 0] : Fin 3 → Nat) = fun _ => 0 := funext fun a => by fin_cases a <;> rfl

/-- The block indices of the four windows at a point: the rows' block and the output's middle block index are the point
    itself, every other block index is 0. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

/-- The stored value at an index of the block, by the index's coordinates. -/
theorem stored_at (x0 : Vec Ideal S512x64 .f32) (x1 : Vec Ideal S64x25 .f32) (x2 : Vec Ideal S64 .f32) (j : S64x512x25.Idx) :
    k0_pay1 (F := Ideal) x0 x1 x2 j = entry (∑ k : Fin 64, x0 (ix2 (j 1) k)) (x1 (ix2 (j 0) (j 2))) (x2 (ix1 (j 0))) := by
  rw [eq_ix3 j]
  exact Body.stored_apply x0 x1 x2 (j 0) (j 1) (j 2)

/-- A stored block entry is an entry of `out` of whole arrays as soon as the three values it reads are the whole arrays'
    values at the matching places. -/
theorem stored_eq_out (X : Vec Ideal S32768x64 .f32) (W : Vec Ideal S64x25 .f32) (B : Vec Ideal S64 .f32)
    (x0 : Vec Ideal S512x64 .f32) (x1 : Vec Ideal S64x25 .f32) (x2 : Vec Ideal S64 .f32)
    (j : S64x512x25.Idx) (i : S64x32768x25.Idx)
    (h0 : ∀ k : Fin 64, x0 (ix2 (j 1) k) = X (ix2 (i 1) k))
    (h1 : x1 (ix2 (j 0) (j 2)) = W (ix2 (i 0) (i 2)))
    (h2 : x2 (ix1 (j 0)) = B (ix1 (i 0))) :
    k0_pay1 (F := Ideal) x0 x1 x2 j = out X W B i := by
  rw [stored_at, h1, h2]
  unfold out rowSum
  rw [Finset.sum_congr rfl fun k _ => h0 k]

/-- WHAT POINT `t` WRITES BACK is block `t` of `out` of the arrays as the region finds them. -/
theorem flushed_eq (c : Dev nD) (t : Fin cfg0.N) :
    (dats m 0 c).flushed 3 t
      = ((cfg0.win 3).blk t).view.read (Elt Ideal) (out (V m c main_v0) (V m c main_v1) (V m c main_arg2)) := by
  show (cfg0.win 3).cut (grid0.coords t) ((dats m 0 c).after 3 t) = _
  rw [after0_3]
  unfold out0_3
  rw [View.canon_unit_zero zero3]
  simp only [View.ld_unit_zero (S := S512x64) zero2, View.ld_unit_zero (S := S64x25) zero2, View.ld_unit_zero (S := S64) zero1]
  obtain ⟨e00, e01, e10, e11, e20, e30, e31, e32⟩ := blockIdx t
  funext j
  show _ = out (V m c main_v0) (V m c main_v1) (V m c main_arg2) (((cfg0.win 3).blk t).view.emb j)
  refine stored_eq_out (V m c main_v0) (V m c main_v1) (V m c main_arg2) (iblk m c 0 t) (iblk m c 1 t) (iblk m c 2 t)
    j (((cfg0.win 3).blk t).view.emb j) (fun k => ?_) ?_ ?_
  · show V m c main_v0 (((cfg0.win 0).blk t).view.emb (ix2 (j 1) k)) = V m c main_v0 (ix2 ((((cfg0.win 3).blk t).view.emb j) 1) k)
    have h : ((cfg0.win 0).blk t).view.emb (ix2 (j 1) k) = ix2 ((((cfg0.win 3).blk t).view.emb j) 1) k := by
      funext a; apply Fin.ext
      match a with
      | ⟨0, _⟩ =>
        show win0_0.index t (0 : Fin 2) * 512 + 1 * (j 1).val = win0_3.index t (1 : Fin 3) * 512 + 1 * (j 1).val
        omega
      | ⟨1, _⟩ =>
        show win0_0.index t (1 : Fin 2) * 64 + 1 * k.val = k.val
        omega
    exact congrArg (V m c main_v0) h
  · show V m c main_v1 (((cfg0.win 1).blk t).view.emb (ix2 (j 0) (j 2)))
      = V m c main_v1 (ix2 ((((cfg0.win 3).blk t).view.emb j) 0) ((((cfg0.win 3).blk t).view.emb j) 2))
    have h : ((cfg0.win 1).blk t).view.emb (ix2 (j 0) (j 2))
        = ix2 ((((cfg0.win 3).blk t).view.emb j) 0) ((((cfg0.win 3).blk t).view.emb j) 2) := by
      funext a; apply Fin.ext
      match a with
      | ⟨0, _⟩ =>
        show win0_1.index t (0 : Fin 2) * 64 + 1 * (j 0).val = win0_3.index t (0 : Fin 3) * 64 + 1 * (j 0).val
        omega
      | ⟨1, _⟩ =>
        show win0_1.index t (1 : Fin 2) * 25 + 1 * (j 2).val = win0_3.index t (2 : Fin 3) * 25 + 1 * (j 2).val
        omega
    exact congrArg (V m c main_v1) h
  · show V m c main_arg2 (((cfg0.win 2).blk t).view.emb (ix1 (j 0))) = V m c main_arg2 (ix1 ((((cfg0.win 3).blk t).view.emb j) 0))
    have h : ((cfg0.win 2).blk t).view.emb (ix1 (j 0)) = ix1 ((((cfg0.win 3).blk t).view.emb j) 0) := by
      funext a; apply Fin.ext
      match a with
      | ⟨0, _⟩ =>
        show win0_2.index t (0 : Fin 1) * 64 + 1 * (j 0).val = win0_3.index t (0 : Fin 3) * 64 + 1 * (j 0).val
        omega
    exact congrArg (V m c main_arg2) h

/-! ## The blocks tile the array -/

/-- An index of the output array is in point `t`'s block iff each coordinate is in the block's range on its axis. -/
theorem mem_block (t : Fin cfg0.N) (i : S64x32768x25.Idx) :
    i ∈ ((cfg0.win 3).blk t).view.set ↔ ∀ a : Fin 3, win0_3.index t a * S64x512x25.size a ≤ (i a).val
      ∧ (i a).val < win0_3.index t a * S64x512x25.size a + S64x512x25.size a := by
  show i ∈ ((View.whole main_v2).slice (win0_3.rect t)).set ↔ _
  rw [View.set_slice_whole, Rect.mem_set_unit]
  exact Iff.rfl

/-- Every block of rows is some point's. -/
theorem point_of_rows : ∀ q : Fin 64, ∃ t : Fin cfg0.N, t.val = q.val :=
  (by decide +kernel : ∀ q : Fin 64, ∃ t : Fin grid0.N, t.val = q.val)

/-- Every index of the output array is in the block of the point its middle coordinate's block of 512 rows names. -/
theorem covered (i : S64x32768x25.Idx) :
    ∃ t : Fin cfg0.N, (cfg0.win 3).flush t = true ∧ i ∈ ((cfg0.win 3).blk t).view.set := by
  have h0 : (i 0).val < 64 := (i 0).isLt
  have h1 : (i 1).val < 32768 := (i 1).isLt
  have h2 : (i 2).val < 25 := (i 2).isLt
  obtain ⟨t, ht⟩ := point_of_rows ⟨(i 1).val / 512, by omega⟩
  have ht' : t.val = (i 1).val / 512 := ht
  obtain ⟨e00, e01, e10, e11, e20, e30, e31, e32⟩ := blockIdx t
  refine ⟨t, flush0_3 t, ?_⟩
  rw [mem_block]
  intro a
  match a with
  | ⟨0, _⟩ =>
    show win0_3.index t (0 : Fin 3) * 64 ≤ (i 0).val ∧ (i 0).val < win0_3.index t (0 : Fin 3) * 64 + 64
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 25 ≤ (i 2).val ∧ (i 2).val < win0_3.index t (2 : Fin 3) * 25 + 25
    omega

/-- THE OUTPUT ARRAY after the region is `out` of the arrays the region found. -/
theorem region_result (c : Dev nD) :
    (dats m 0 c).arrAt 3 cfg0.N = out (V m c main_v0) (V m c main_v1) (V m c main_arg2) :=
  (dats m 0 c).arrAt_eq_of_cover 3 _ (fun t _ => flushed_eq m c t) covered

/-! ## The whole program -/

/-- The program's result as one function of its three arguments. -/
def result (x : Vec Ideal S8x64x64x64 .f32) (w : Vec Ideal S64x5x5 .f32) (b : Vec Ideal S64 .f32) : Vec Ideal S1x64x32768x25 .f32 :=
  broadcastInDim S1x64x32768x25 ![1, 2, 3] bcast_S64x32768x25_S1x64x32768x25_1_2_3
    (out (shapeCast S32768x64 x shapeCasts_S8x64x64x64_S32768x64) (shapeCast S64x25 w shapeCasts_S64x5x5_S64x25) b)

/-- The result buffer after the line that follows the region. -/
theorem tail_eq (c : Dev nD) :
    Pipeline.afterTail₀ cfgs (dats m) 0 (V0 m) [hostOps1] c main_v3
      = result (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  unfold result
  refine congrArg _ ?_
  refine ((Pipeline.withArrays_arr spec0 launch0.win.arr_inj c _ _ 3).trans (region_result m c)).trans ?_
  rw [rows_eq, taps_eq, V_main_arg2]

/-- Every weakly fair execution terminates with the result buffer at `result` of the arguments and the arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c)))⟩)
    (run_main m ρ)

end Cert.KernelIdeal.Whole

end
-- ==== Proof.RefSide.lean ====
/-
  The reference program read index by index.  It sums the input over its last axis, views the sums as one vector of 32768,
  views the filters as 64 rows of 25 taps, lays sums, taps and biases out over [64, 32768, 25], multiplies, adds, takes the
  maximum with 0, and adds a leading unit axis.  Entry (n) of the vector of sums is the sum of row n of the input viewed as
  32768 rows of 64: both views keep the row-major order.  So before the last step the reference holds `OuterRelu.out` of
  the input viewed as rows, the filters viewed as rows of taps, and the biases.
-/
import proofs.«164754_j83193516523865_1_alg».proof.Proof.Gen.ReferenceIdeal.Run
import proofs.«164754_j83193516523865_1_alg».proof.Proof.Gen.ReferenceIdeal.Read
import proofs.«164754_j83193516523865_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Whole

open Cert.ReferenceIdeal Cert.ReferenceIdeal.Gen Cert.ReferenceIdeal.Read
open Idealize.ShloMosaic Idealize.ShloMosaic.ValueIdx Cert.OuterRelu

/-- Entry `n` of the vector of sums is the sum of row `n` of the input viewed as rows. -/
theorem sums_apply (x : Vec Ideal S8x64x64x64 .f32) (hx : S8x64x64x64.ShapeCasts Rows) (n : Fin 32768) :
    val_main_v1 (F := Ideal) x (ix1 n) = rowSum (shapeCast Rows x hx) n := by
  rw [val_main_v1_apply, val_main_v0_apply, val_main_cst_apply]
  show Ideal.ofBits .f32 0x00000000#32 + _ = _
  rw [Ideal.ofBits_zero_f32, zero_add]
  unfold rowSum
  refine Finset.sum_congr rfl fun k _ => ?_
  refine (shapeCast_apply x hx (ix2 n k) (idx_main_v0 (idx_main_v1 (ix1 n)) k) ?_).symm
  rw [Shape.rowMajor_val_four, Shape.rowMajor_val_two]
  show ((n.val / 4096 * 64 + n.val / 64 % 64) * 64 + n.val % 64) * 64 + k.val = n.val * 64 + k.val
  have hn : n.val < 32768 := n.isLt
  omega

/-- Before its last step the reference holds `out` of the input viewed as rows, the filters viewed as rows of taps, and the biases. -/
theorem stage_eq (x : Vec Ideal S8x64x64x64 .f32) (w : Vec Ideal S64x5x5 .f32) (b : Vec Ideal S64 .f32)
    (hx : S8x64x64x64.ShapeCasts Rows) (hw : S64x5x5.ShapeCasts Taps) :
    val_main_v11 (F := Ideal) x w b = out (shapeCast Rows x hx) (shapeCast Taps w hw) b := by
  funext i
  obtain ⟨f, n, p, rfl⟩ : ∃ (f : Fin 64) (n : Fin 32768) (p : Fin 25), i = ix3 f n p := ⟨i 0, i 1, i 2, eq_ix3 i⟩
  rw [out_ix3]
  rw [val_main_v11_apply, val_main_v10_apply, val_main_v7_apply, val_main_v5_apply, val_main_v3_apply,
    val_main_v6_apply, val_main_v4_apply, val_main_v9_apply, val_main_v8_apply, val_main_call0_v0_apply,
    val_main_call0_cst_apply]
  have e1 : idx_main_v3 (idx_main_v5 (ix3 f n p)) = ix1 n := funext fun a => Fin.ext (by match a with | ⟨0, _⟩ => rfl)
  have e2 : idx_main_v4 (idx_main_v6 (ix3 f n p)) = ix2 f p :=
    funext fun a => Fin.ext (by match a with | ⟨0, _⟩ => rfl | ⟨1, _⟩ => rfl)
  have e3 : idx_main_v8 (idx_main_v9 (ix3 f n p)) = ix1 f := funext fun a => Fin.ext (by match a with | ⟨0, _⟩ => rfl)
  rw [e1, e2, e3, sums_apply x hx n]
  show max (_ * _ + _) (Ideal.ofBits .f32 0x00000000#32) = _
  rw [Ideal.ofBits_zero_f32]
  rfl

end Cert.ReferenceIdeal.Whole

end
-- ==== Proof.lean ====
/-
  The kernel and the reference compute, over the extended reals,

      result[0, f, n, p] = max (rowSum[n] * Wf[f, p] + b[f]) 0,     rowSum[n] = Σ_k x2[n, k],

  where x2 is the input [8, 64, 64, 64] viewed as 32768 rows of 64 and Wf the filters [64, 5, 5] viewed as 64 rows of 25.

  The kernel (Proof/KernelValue.lean) walks 64 grid points; point t sums 512 rows, forms the [64, 512, 25] block from those
  sums, all taps and all biases (Proof/KernelPay.lean reads the stored value at one index), and the 64 blocks tile the
  output.  The reference (Proof/RefSide.lean) sums the input over its last axis first and views the sums as a vector; since
  both views keep the row-major order, entry n of that vector is the sum of row n of x2.  Both sides apply the same sum,
  product, sum and maximum in the same order, so the two results are equal term by term and no precondition is used.
  The idealized kernel is the word-level kernel's own text read over the extended reals: no operation was rewritten, so
  there is nothing to preserve beyond the text.
-/
import proofs.«164754_j83193516523865_1_alg».proof.Defs
import proofs.«164754_j83193516523865_1_alg».proof.Proof.Gen.Kernel
import proofs.«164754_j83193516523865_1_alg».proof.Proof.Gen.Kernel.Frame
import proofs.«164754_j83193516523865_1_alg».proof.Proof.Gen.KernelIdeal
import proofs.«164754_j83193516523865_1_alg».proof.Proof.Gen.KernelIdeal.Frame
import proofs.«164754_j83193516523865_1_alg».proof.Proof.Gen.ReferenceIdeal
import proofs.«164754_j83193516523865_1_alg».proof.Proof.Gen.ReferenceIdeal.Run
import proofs.«164754_j83193516523865_1_alg».proof.Proof.Gen.ReferenceIdeal.Read
import proofs.«164754_j83193516523865_1_alg».proof.Proof.Gen.Pre_finite_inputs
import proofs.«164754_j83193516523865_1_alg».proof.Proof.KernelValue
import proofs.«164754_j83193516523865_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for its idealized reading. -/
theorem preserves : Cert.preserves_Kernel_KernelIdeal := trivial

/-- From memories that agree on the arguments both programs end with the result buffer at the same function of the
    arguments: the kernel's is `Whole.result`; the reference's last step adds the leading unit axis to the array that
    `Whole.stage_eq` reads as the same `out`. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v12_eq _ _ _).trans ?_
  unfold Cert.ReferenceIdeal.Read.val_main_v12 Cert.KernelIdeal.Whole.result
  rw [Cert.ReferenceIdeal.Whole.stage_eq _ _ _ Cert.KernelIdeal.Gen.shapeCasts_S8x64x64x64_S32768x64
    Cert.KernelIdeal.Gen.shapeCasts_S64x5x5_S64x25]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
